-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x64 .f32) (main_arg1 : FVec F S4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x64 : Shape := ⟨2, ![4096, 64]⟩
abbrev S4096x4096 : Shape := ⟨2, ![4096, 4096]⟩
abbrev S512x4096 : Shape := ⟨2, ![512, 4096]⟩
abbrev S512x64 : Shape := ⟨2, ![512, 64]⟩
abbrev S64x512 : Shape := ⟨2, ![64, 512]⟩
abbrev S64x64 : Shape := ⟨2, ![64, 64]⟩

abbrev nBuf : Space → Nat
  | .hbm => 3
  | .vmem => 5
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .local _ .vmem, ⟨0, _⟩ => ⟨S4096x64, .f32⟩
  | .local _ .vmem, ⟨1, _⟩ => ⟨S512x4096, .f32⟩
  | .local _ .vmem, ⟨2, _⟩ => ⟨S512x4096, .f32⟩
  | .local _ .vmem, ⟨3, _⟩ => ⟨S512x64, .f32⟩
  | .local _ .vmem, ⟨4, _⟩ => ⟨S512x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x64_S4096x64_0_0 : ∀ a, (![0, 0] : Fin 2 → Nat) a + S4096x64.size a ≤ S4096x64.size a
  h_S4096x64 : 0 < S4096x64.numel
  inb_S512x4096_S512x4096_0_0 : ∀ a, (![0, 0] : Fin 2 → Nat) a + S512x4096.size a ≤ S512x4096.size a
  h_S512x4096 : 0 < S512x4096.numel
  iota_S64x64_d0_w32 : S64x64.Iotas .tc 32 [0]
  iota_S64x64_d1_w32 : S64x64.Iotas .tc 32 [1]
  natLt_1_32 : 1 < 32
  inb_S512x64_S512x64_0_0 : ∀ a, (![0, 0] : Fin 2 → Nat) a + S512x64.size a ≤ S512x64.size a
  h_S512x64 : 0 < S512x64.numel
  dot_S4096x64_S512x4096_S64x512_0_1_1_0_n_n_wf : DotDims.WF S4096x64 S512x4096 S64x512 [0] [1] [1] [0] [] []
  dot_S64x512_S64x64_S512x64_0_0_1_1_n_n_wf : DotDims.WF S64x512 S64x64 S512x64 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .f32 = 32 ∨ (Rect.block (s := S4096x64) S512x64.size (cc0_transform_2 i) (hinb0_2 i)).WholeWords (EltTy.packing .f32)

variable [Facts₀]

def dot_S4096x64_S512x4096_S64x512_0_1_1_0_n_n : DotDims S4096x64 S512x4096 S64x512 where
  lhsContracting := [0]
  rhsContracting := [1]
  lhsNonContracting := [1]
  rhsNonContracting := [0]
  lhsBatch := []
  rhsBatch := []
  wf := dot_S4096x64_S512x4096_S64x512_0_1_1_0_n_n_wf
def dot_S64x512_S64x64_S512x64_0_0_1_1_n_n : DotDims S64x512 S64x64 S512x64 where
  lhsContracting := [0]
  rhsContracting := [0]
  lhsNonContracting := [1]
  rhsNonContracting := [1]
  lhsBatch := []
  rhsBatch := []
  wf := dot_S64x512_S64x64_S512x64_0_0_1_1_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.MatProduct.lean ====
/-
  The mathematics both programs compute, with no program in sight: the product of a 4096 x 4096 matrix
  `w` with a 4096 x 64 matrix `x`, entry (r, j) being the sum over k of w (r, k) * x (k, j) on the extended
  reals; and the one law the kernel's arrangement needs. The kernel forms, for a tile of rows, the transposed
  product T (n, p) = sum over k of x (k, n) * w (p, k) and then contracts T with the 64 x 64 identity matrix over
  its FIRST axis, which transposes it back: sum over n of T (n, p) * delta (n, q) = T (q, p). On the extended
  reals this needs no finiteness: a product with 0 is 0 and a product with 1 is the other factor, whatever the
  factor, and products commute.
-/
import Idealize.ShloMosaic.Lib.ValueIdx
import Idealize.ShloMosaic.PureOps.Ideal

noncomputable section

namespace Cert.MatProduct

open Idealize.ShloMosaic Idealize.ShloMosaic.ValueIdx

/-- The whole product `w * x`: entry (r, j) is the sum over k of w (r, k) * x (k, j). -/
def prod (x : (⟨2, ![4096, 64]⟩ : Shape).Idx → EReal) (w : (⟨2, ![4096, 4096]⟩ : Shape).Idx → EReal) :
    (⟨2, ![4096, 64]⟩ : Shape).Idx → EReal :=
  fun i => ∑ k : Fin 4096, w (ix2 (i 0) k) * x (ix2 k (i 1))

/-- The identity matrix's entry (n, q) on the extended reals. -/
def delta (n q : Fin 64) : EReal := if n = q then 1 else 0

/-- Contracting a family of sums with the identity matrix over the first axis picks the column `q`: the
    terms with n ≠ q vanish (a product with 0), the term n = q is itself (a product with 1), and the
    factors of each remaining product commute. -/
theorem sum_mul_delta {K : Type} [Fintype K] (X : K → Fin 64 → EReal) (W : K → EReal) (q : Fin 64) :
    ∑ n : Fin 64, (∑ k : K, X k n * W k) * delta n q = ∑ k : K, W k * X k q := by
  rw [Finset.sum_eq_single q]
  · rw [delta, if_pos rfl, mul_one]
    exact Finset.sum_congr rfl fun k _ => mul_comm _ _
  · intro n _ hn
    rw [delta, if_neg hn, mul_zero]
  · intro h
    exact absurd (Finset.mem_univ q) h

/-- The 32-bit word the kernel computes for the identity matrix's entry (n, q): the comparison of the row
    number (plus 0) with the column number, widened; it is the word 1 on the diagonal and the word 0 off it
    (decided over the 64 x 64 entries). -/
theorem eye_word : ∀ n q : Fin 64,
    (IntOp.cmpi .eq (IntOp.addi (BitVec.ofNat 32 n.val) 0#32) (BitVec.ofNat 32 q.val)).setWidth 32
      = if n = q then 1#32 else 0#32 := by
  decide +kernel

/-- Read as a signed integer and then as an extended real, that word is the identity matrix's entry. -/
theorem eye_entry (n q : Fin 64) :
    ((((IntOp.cmpi .eq (IntOp.addi (BitVec.ofNat 32 n.val) 0#32) (BitVec.ofNat 32 q.val)).setWidth 32).toInt : ℝ) : EReal)
      = delta n q := by
  rw [eye_word, delta]
  by_cases h : n = q
  · rw [if_pos h, if_pos h]; norm_num
  · rw [if_neg h, if_neg h]; norm_num

end Cert.MatProduct

end
-- ==== Proof.TileProduct.lean ====
/-
  One tile of the kernel, read at an entry. The body loads the whole 4096 x 64 matrix `x` and a tile of 512
  rows of `w`, forms the transposed product T (n, p) = sum over k of x (k, n) * w (p, k) (a contraction of x's
  first axis with the tile's second), builds the 64 x 64 identity matrix from two index counters, and contracts
  T's FIRST axis with the identity's first: entry (p, q) of the result is the sum over n of T (n, p) * delta (n, q),
  which is T (q, p) = sum over k of w (p, k) * x (k, q): row p of the tile times column q of x.
-/
import proofs.«126336_g11922829214311_fold_wed_m_296_27_alg».proof.Proof.Gen.KernelIdeal.Skeleton
import proofs.«126336_g11922829214311_fold_wed_m_296_27_alg».proof.Proof.MatProduct
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.MatProduct

/-! ## The first contraction: x's axis 0 with the tile's axis 1 -/

theorem lhs_first_0 (i : S64x512.Idx) (q : dot_S4096x64_S512x4096_S64x512_0_1_1_0_n_n.contr.Idx) :
    (dot_S4096x64_S512x4096_S64x512_0_1_1_0_n_n.lhsIdx i q 0).val = (q ⟨0, by decide⟩).val :=
  dot_S4096x64_S512x4096_S64x512_0_1_1_0_n_n.lhsIdx_val_of_single rfl i q
theorem lhs_first_1 (i : S64x512.Idx) (q : dot_S4096x64_S512x4096_S64x512_0_1_1_0_n_n.contr.Idx) :
    (dot_S4096x64_S512x4096_S64x512_0_1_1_0_n_n.lhsIdx i q 1).val = (i 0).val := by
  unfold DotDims.lhsIdx
  rw [dif_neg (show ¬(1 : Fin S4096x64.rank) ∈ dot_S4096x64_S512x4096_S64x512_0_1_1_0_n_n.lhsBatch by decide), dif_pos (show (1 : Fin S4096x64.rank) ∈ dot_S4096x64_S512x4096_S64x512_0_1_1_0_n_n.lhsNonContracting by decide)]
  rfl
theorem rhs_first_0 (i : S64x512.Idx) (q : dot_S4096x64_S512x4096_S64x512_0_1_1_0_n_n.contr.Idx) :
    (dot_S4096x64_S512x4096_S64x512_0_1_1_0_n_n.rhsIdx i q 0).val = (i 1).val := by
  unfold DotDims.rhsIdx
  rw [dif_neg (show ¬(0 : Fin S512x4096.rank) ∈ dot_S4096x64_S512x4096_S64x512_0_1_1_0_n_n.rhsBatch by decide), dif_pos (show (0 : Fin S512x4096.rank) ∈ dot_S4096x64_S512x4096_S64x512_0_1_1_0_n_n.rhsNonContracting by decide)]
  rfl
theorem rhs_first_1 (i : S64x512.Idx) (q : dot_S4096x64_S512x4096_S64x512_0_1_1_0_n_n.contr.Idx) :
    (dot_S4096x64_S512x4096_S64x512_0_1_1_0_n_n.rhsIdx i q 1).val = (q ⟨0, by decide⟩).val :=
  dot_S4096x64_S512x4096_S64x512_0_1_1_0_n_n.rhsIdx_val_of_single rfl i q

/-- The transposed product at (n, p): the sum over k of x (k, n) * tile (p, k). -/
theorem first_apply (x : FVec Ideal S4096x64 .f32) (wt : FVec Ideal S512x4096 .f32) (n : Fin 64) (p : Fin 512) :
    matmul dot_S4096x64_S512x4096_S64x512_0_1_1_0_n_n none x wt (constant S64x512 .f32 0x00000000#32) (ix2 n p)
      = ∑ k : Fin 4096, x (ix2 k n) * wt (ix2 p k) := by
  simp only [matmul]
  rw [Ideal.matmul_constant_zero_apply, ← Equiv.sum_comp (contrEquiv1 dot_S4096x64_S512x4096_S64x512_0_1_1_0_n_n 4096 rfl rfl).symm]
  refine Finset.sum_congr rfl fun k _ => ?_
  have hk := contrEquiv1_symm_val dot_S4096x64_S512x4096_S64x512_0_1_1_0_n_n 4096 rfl rfl k
  have el : dot_S4096x64_S512x4096_S64x512_0_1_1_0_n_n.lhsIdx (ix2 n p) ((contrEquiv1 dot_S4096x64_S512x4096_S64x512_0_1_1_0_n_n 4096 rfl rfl).symm k) = ix2 k n := funext fun a => Fin.ext (by
    match a with
    | ⟨0, _⟩ => exact (lhs_first_0 _ _).trans hk
    | ⟨1, _⟩ => exact lhs_first_1 _ _)
  have er : dot_S4096x64_S512x4096_S64x512_0_1_1_0_n_n.rhsIdx (ix2 n p) ((contrEquiv1 dot_S4096x64_S512x4096_S64x512_0_1_1_0_n_n 4096 rfl rfl).symm k) = ix2 p k := funext fun a => Fin.ext (by
    match a with
    | ⟨0, _⟩ => exact rhs_first_0 _ _
    | ⟨1, _⟩ => exact (rhs_first_1 _ _).trans hk)
  rw [el, er]

/-! ## The second contraction: the transposed product's axis 0 with the identity's axis 0 -/

theorem lhs_second_0 (i : S512x64.Idx) (q : dot_S64x512_S64x64_S512x64_0_0_1_1_n_n.contr.Idx) :
    (dot_S64x512_S64x64_S512x64_0_0_1_1_n_n.lhsIdx i q 0).val = (q ⟨0, by decide⟩).val :=
  dot_S64x512_S64x64_S512x64_0_0_1_1_n_n.lhsIdx_val_of_single rfl i q
theorem lhs_second_1 (i : S512x64.Idx) (q : dot_S64x512_S64x64_S512x64_0_0_1_1_n_n.contr.Idx) :
    (dot_S64x512_S64x64_S512x64_0_0_1_1_n_n.lhsIdx i q 1).val = (i 0).val := by
  unfold DotDims.lhsIdx
  rw [dif_neg (show ¬(1 : Fin S64x512.rank) ∈ dot_S64x512_S64x64_S512x64_0_0_1_1_n_n.lhsBatch by decide), dif_pos (show (1 : Fin S64x512.rank) ∈ dot_S64x512_S64x64_S512x64_0_0_1_1_n_n.lhsNonContracting by decide)]
  rfl
theorem rhs_second_0 (i : S512x64.Idx) (q : dot_S64x512_S64x64_S512x64_0_0_1_1_n_n.contr.Idx) :
    (dot_S64x512_S64x64_S512x64_0_0_1_1_n_n.rhsIdx i q 0).val = (q ⟨0, by decide⟩).val :=
  dot_S64x512_S64x64_S512x64_0_0_1_1_n_n.rhsIdx_val_of_single rfl i q
theorem rhs_second_1 (i : S512x64.Idx) (q : dot_S64x512_S64x64_S512x64_0_0_1_1_n_n.contr.Idx) :
    (dot_S64x512_S64x64_S512x64_0_0_1_1_n_n.rhsIdx i q 1).val = (i 1).val := by
  unfold DotDims.rhsIdx
  rw [dif_neg (show ¬(1 : Fin S64x64.rank) ∈ dot_S64x512_S64x64_S512x64_0_0_1_1_n_n.rhsBatch by decide), dif_pos (show (1 : Fin S64x64.rank) ∈ dot_S64x512_S64x64_S512x64_0_0_1_1_n_n.rhsNonContracting by decide)]
  rfl

/-- The second product at (p, q): the sum over n of T (n, p) * E (n, q). -/
theorem second_apply (T : FVec Ideal S64x512 .f32) (E : FVec Ideal S64x64 .f32) (p : Fin 512) (q : Fin 64) :
    matmul dot_S64x512_S64x64_S512x64_0_0_1_1_n_n none T E (constant S512x64 .f32 0x00000000#32) (ix2 p q)
      = ∑ n : Fin 64, T (ix2 n p) * E (ix2 n q) := by
  simp only [matmul]
  rw [Ideal.matmul_constant_zero_apply, ← Equiv.sum_comp (contrEquiv1 dot_S64x512_S64x64_S512x64_0_0_1_1_n_n 64 rfl rfl).symm]
  refine Finset.sum_congr rfl fun n _ => ?_
  have hn := contrEquiv1_symm_val dot_S64x512_S64x64_S512x64_0_0_1_1_n_n 64 rfl rfl n
  have el : dot_S64x512_S64x64_S512x64_0_0_1_1_n_n.lhsIdx (ix2 p q) ((contrEquiv1 dot_S64x512_S64x64_S512x64_0_0_1_1_n_n 64 rfl rfl).symm n) = ix2 n p := funext fun a => Fin.ext (by
    match a with
    | ⟨0, _⟩ => exact (lhs_second_0 _ _).trans hn
    | ⟨1, _⟩ => exact lhs_second_1 _ _)
  have er : dot_S64x512_S64x64_S512x64_0_0_1_1_n_n.rhsIdx (ix2 p q) ((contrEquiv1 dot_S64x512_S64x64_S512x64_0_0_1_1_n_n 64 rfl rfl).symm n) = ix2 n q := funext fun a => Fin.ext (by
    match a with
    | ⟨0, _⟩ => exact (rhs_second_0 _ _).trans hn
    | ⟨1, _⟩ => exact rhs_second_1 _ _)
  rw [el, er]

/-! ## The identity matrix the body builds -/

/-- The body's identity operand at (n, q): the row counter (plus a zero splat) compared with the column
    counter, widened and converted, is the identity matrix's entry. -/
theorem eye_apply (n q : Fin 64) :
    (sitofp .f32 (extui 32 (cmpi .eq (addi (iota .tc S64x64 32 [0] iota_S64x64_d0_w32) (broadcast S64x64 0#32))
        (iota .tc S64x64 32 [1] iota_S64x64_d1_w32)) natLt_1_32) : FVec Ideal S64x64 .f32) (ix2 n q) = delta n q := by
  show ((((IntOp.cmpi .eq (IntOp.addi (iota .tc S64x64 32 [0] iota_S64x64_d0_w32 (ix2 n q)) 0#32)
      (iota .tc S64x64 32 [1] iota_S64x64_d1_w32 (ix2 n q))).setWidth 32).toInt : ℝ) : EReal) = _
  rw [iota_single_apply, iota_single_apply]
  exact eye_entry n q

/-! ## The tile -/

/-- THE TILE AT AN ENTRY: row p of the loaded tile times column q of x. -/
theorem pay_apply (x : Vec Ideal S4096x64 .f32) (wt : Vec Ideal S512x4096 .f32) (p : Fin 512) (q : Fin 64) :
    k0_pay1 (F := Ideal) x wt (ix2 p q) = ∑ k : Fin 4096, wt (ix2 p k) * x (ix2 k q) := by
  unfold k0_pay1
  refine (second_apply _ _ p q).trans ?_
  rw [← sum_mul_delta (fun k n => x (ix2 k n)) (fun k => wt (ix2 p k)) q]
  refine Finset.sum_congr rfl fun n _ => ?_
  rw [first_apply, eye_apply]

end Cert.KernelIdeal.Tile

end
-- ==== Proof.WholeArray.lean ====
/-
  From tiles to the whole array. Grid point t (of 8) loads all of x, rows 512 t .. 512 t + 511 of w, and
  writes rows 512 t .. 512 t + 511 of the result. What it writes is the tile's product (row p of the tile times
  column q of x), and row p of the tile is row 512 t + p of w: so point t writes block t of the whole product
  `w * x`. Every row r lies in the block of the point r / 512, so the 8 blocks cover the array, and the array
  ends holding the whole product.
-/
import proofs.«126336_g11922829214311_fold_wed_m_296_27_alg».proof.Proof.Gen.KernelIdeal.Value
import proofs.«126336_g11922829214311_fold_wed_m_296_27_alg».proof.Proof.TileProduct

noncomputable section

namespace Cert.KernelIdeal.Whole

open Cert.KernelIdeal Cert.KernelIdeal.Gen Idealize.ShloMosaic Idealize.ShloMosaic.TcCoe Idealize.SL.Sem
open Idealize.ShloMosaic.ValueIdx Cert.MatProduct
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the grid: x is always its one block; the tile of w and the block of the result
    are both block row t. -/
theorem block_rows : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole product of the arrays as the region finds them. -/
theorem flushed_eq (c : Dev nD) (t : Fin cfg0.N) :
    (dats m 0 c).flushed 2 t = ((cfg0.win 2).blk t).view.read (Elt Ideal) (prod (V m c main_arg0) (V m c main_arg1)) := by
  rw [Value.flushed2]
  unfold out0_2
  rw [View.canon_unit_zero zero_offsets]
  simp only [View.ld_unit_zero (S := S4096x64) zero_offsets, View.ld_unit_zero (S := S512x4096) zero_offsets]
  obtain ⟨e00, e01, e10, e11, e20, e21⟩ := block_rows t
  refine funext fun (j : S512x64.Idx) => ?_
  obtain ⟨p, q, rfl⟩ : ∃ (p : Fin 512) (q : Fin 64), j = ix2 p q := ⟨j 0, j 1, eq_ix2 j⟩
  show k0_pay1 (iblk m c 0 t) (iblk m c 1 t) (ix2 p q)
    = prod (V m c main_arg0) (V m c main_arg1) (((cfg0.win 2).blk t).view.emb (ix2 p q))
  refine (Tile.pay_apply _ _ p q).trans ?_
  unfold prod
  refine Finset.sum_congr rfl fun k _ => ?_
  have hw : iblk m c 1 t (ix2 p k) = V m c main_arg1 (ix2 ((((cfg0.win 2).blk t).view.emb (ix2 p q)) 0) k) := by
    show V m c main_arg1 (((cfg0.win 1).blk t).view.emb (ix2 p k)) = _
    congr 1
    funext a; apply Fin.ext
    match a with
    | ⟨0, _⟩ => show win0_1.index t (0 : Fin 2) * 512 + 1 * p.val = win0_2.index t (0 : Fin 2) * 512 + 1 * p.val; omega
    | ⟨1, _⟩ => show win0_1.index t (1 : Fin 2) * 4096 + 1 * k.val = k.val; omega
  have hx : iblk m c 0 t (ix2 k q) = V m c main_arg0 (ix2 k ((((cfg0.win 2).blk t).view.emb (ix2 p q)) 1)) := by
    show V m c main_arg0 (((cfg0.win 0).blk t).view.emb (ix2 k q)) = _
    congr 1
    funext a; apply Fin.ext
    match a with
    | ⟨0, _⟩ => show win0_0.index t (0 : Fin 2) * 4096 + 1 * k.val = k.val; omega
    | ⟨1, _⟩ => show win0_0.index t (1 : Fin 2) * 64 + 1 * q.val = win0_2.index t (1 : Fin 2) * 64 + 1 * q.val; omega
  rw [hw, hx]

/-- An index of the array is in point t's block iff each coordinate is in the block's range on its axis. -/
theorem mem_blk (t : Fin cfg0.N) (i : S4096x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v0).slice (win0_2.rect t)).set ↔ _
  rw [View.set_slice_whole, Rect.mem_set_unit]
  exact Iff.rfl

/-- Every index of the result lies in the block of the point (row / 512). -/
theorem cover (i : S4096x64.Idx) : ∃ t : Fin cfg0.N, (cfg0.win 2).flush t = true ∧ i ∈ ((cfg0.win 2).blk t).view.set := by
  have hi0 : (i 0).val < 4096 := (i 0).isLt
  have hi1 : (i 1).val < 64 := (i 1).isLt
  have hN : (i 0).val / 512 < cfg0.N := by
    show (i 0).val / 512 < grid0.N
    rw [N_0]; omega
  refine ⟨⟨(i 0).val / 512, hN⟩, flush0_2 _, ?_⟩
  obtain ⟨-, -, -, -, e20, e21⟩ := block_rows ⟨(i 0).val / 512, hN⟩
  rw [mem_blk]
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    rw [e20]
    show (i 0).val / 512 * 512 ≤ (i 0).val ∧ (i 0).val < (i 0).val / 512 * 512 + 512
    omega
  | ⟨1, _⟩ =>
    show win0_2.index ⟨(i 0).val / 512, hN⟩ (1 : Fin 2) * 64 ≤ (i 1).val ∧ (i 1).val < win0_2.index ⟨(i 0).val / 512, hN⟩ (1 : Fin 2) * 64 + 64
    rw [e21]
    omega

/-- THE ARRAY after the run is the whole product of the arguments. -/
theorem final (c : Dev nD) :
    (dats m 0 c).arrAt 2 cfg0.N = prod (m ((c : Thread nD τ).loc main_arg0)) (m ((c : Thread nD τ).loc main_arg1)) :=
  (dats m 0 c).arrAt_eq_of_cover 2 (prod (V m c main_arg0) (V m c main_arg1)) (fun t _ => flushed_eq m c t) cover

/-- The kernel's run: the result array ends at the whole product, the arguments unchanged. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefProduct.lean ====
/-
  The reference, read at an entry: its one operation contracts w's second axis with x's first, so entry
  (r, j) of its result is the sum over k of w (r, k) * x (k, j): the whole product.
-/
import proofs.«126336_g11922829214311_fold_wed_m_296_27_alg».proof.Proof.Gen.ReferenceIdeal.Read
import proofs.«126336_g11922829214311_fold_wed_m_296_27_alg».proof.Proof.MatProduct

noncomputable section

namespace Cert.ReferenceIdeal.RefValue

open Cert.ReferenceIdeal Cert.ReferenceIdeal.Read Idealize.ShloMosaic Idealize.ShloMosaic.ValueIdx Cert.MatProduct

/-- The reference's result is the product `w * x`, entry by entry. -/
theorem ref_is_prod (x : (⟨S4096x64, .f32⟩ : BufTy).Contents (Elt Ideal)) (w : (⟨S4096x4096, .f32⟩ : BufTy).Contents (Elt Ideal)) :
    val_main_v0 (F := Ideal) x w = prod x w := by
  funext i
  rw [val_main_v0_apply]
  have el : ∀ k : Fin 4096, lidx_main_v0 i k = ix2 (i 0) k := fun k => funext fun a => Fin.ext (by
    match a with
    | ⟨0, _⟩ => rfl
    | ⟨1, _⟩ => rfl)
  have er : ∀ k : Fin 4096, ridx_main_v0 i k = ix2 k (i 1) := fun k => funext fun a => Fin.ext (by
    match a with
    | ⟨0, _⟩ => rfl
    | ⟨1, _⟩ => rfl)
  simp only [el, er]
  rfl

end Cert.ReferenceIdeal.RefValue

end
-- ==== Proof.lean ====
/-
  The kernel computes `w * x` (w 4096 x 4096, x 4096 x 64) tile by tile: for each of 8 tiles of 512 rows of w
  it forms the transposed product T (n, p) = sum over k of x (k, n) * tile (p, k) and transposes it back by
  contracting with the 64 x 64 identity matrix, sum over n of T (n, p) * delta (n, q). The reference is the one
  contraction sum over k of w (r, k) * x (k, j). On the extended reals the two agree entry by entry with no
  appeal to finiteness: a product with the identity's 0 vanishes, a product with its 1 is the other factor,
  and the factors of each product commute (Proof/MatProduct.lean). Proof/TileProduct.lean reads one tile at an
  entry, Proof/WholeArray.lean assembles the 8 tiles into the whole array, Proof/RefProduct.lean reads the
  reference; here the five claims are put together: the three runs end with their arguments unchanged, the
  idealization rewrote nothing, and both idealized programs end with the whole product of their (agreeing)
  arguments.
-/
import proofs.«126336_g11922829214311_fold_wed_m_296_27_alg».proof.Defs
import proofs.«126336_g11922829214311_fold_wed_m_296_27_alg».proof.Proof.Gen.Kernel
import proofs.«126336_g11922829214311_fold_wed_m_296_27_alg».proof.Proof.Gen.Kernel.Skeleton
import proofs.«126336_g11922829214311_fold_wed_m_296_27_alg».proof.Proof.Gen.Kernel.Launch
import proofs.«126336_g11922829214311_fold_wed_m_296_27_alg».proof.Proof.Gen.Kernel.Points
import proofs.«126336_g11922829214311_fold_wed_m_296_27_alg».proof.Proof.Gen.Kernel.Frame
import proofs.«126336_g11922829214311_fold_wed_m_296_27_alg».proof.Proof.Gen.KernelIdeal
import proofs.«126336_g11922829214311_fold_wed_m_296_27_alg».proof.Proof.Gen.KernelIdeal.Skeleton
import proofs.«126336_g11922829214311_fold_wed_m_296_27_alg».proof.Proof.Gen.KernelIdeal.Launch
import proofs.«126336_g11922829214311_fold_wed_m_296_27_alg».proof.Proof.Gen.KernelIdeal.Points
import proofs.«126336_g11922829214311_fold_wed_m_296_27_alg».proof.Proof.Gen.KernelIdeal.Frame
import proofs.«126336_g11922829214311_fold_wed_m_296_27_alg».proof.Proof.Gen.ReferenceIdeal
import proofs.«126336_g11922829214311_fold_wed_m_296_27_alg».proof.Proof.Gen.Pre_finite_inputs
import proofs.«126336_g11922829214311_fold_wed_m_296_27_alg».proof.Proof.Gen.KernelIdeal.Value
import proofs.«126336_g11922829214311_fold_wed_m_296_27_alg».proof.Proof.Gen.ReferenceIdeal.Run
import proofs.«126336_g11922829214311_fold_wed_m_296_27_alg».proof.Proof.Gen.ReferenceIdeal.Read
import proofs.«126336_g11922829214311_fold_wed_m_296_27_alg».proof.Proof.MatProduct
import proofs.«126336_g11922829214311_fold_wed_m_296_27_alg».proof.Proof.TileProduct
import proofs.«126336_g11922829214311_fold_wed_m_296_27_alg».proof.Proof.WholeArray
import proofs.«126336_g11922829214311_fold_wed_m_296_27_alg».proof.Proof.RefProduct
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the idealized kernel's array ends at the whole product `w * x` (the 8 tiles
    assembled) and the idealized reference's at the same product (its one contraction). -/
theorem algebraic : Cert.algebraic_KernelIdeal_ReferenceIdeal := by
  intro m ρ m' ρ' _ hagree
  refine ⟨fun c => Cert.MatProduct.prod (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_is_prod, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
